-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x256 : Shape := ⟨3, ![4096, 128, 256]⟩
abbrev S4096 : Shape := ⟨1, ![4096]⟩
abbrev S_ : Shape := ⟨0, ![]⟩

class Facts : Prop where
  bcast_S_S4096x128x256 : S_.BroadcastsInDim S4096x128x256 (![] : Fin 0 → Fin S4096x128x256.rank)
  reducesTo_S4096x128x256_S_d0_1_2 : S4096x128x256.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x128x256 .f32) (main_arg1 : IVec S4096 32) : IVec S_ 1 :=
  let main_v0 : FVec F S4096x128x256 .f32 := Host.absf main_arg0
  let main_cst : FVec F S_ .f32 := constant S_ .f32 0x7F800000#32
  let main_v1 : FVec F S4096x128x256 .f32 := broadcastInDim S4096x128x256 ![] bcast_S_S4096x128x256 main_cst
  let main_v2 : IVec S4096x128x256 1 := cmpf .olt main_v0 main_v1
  let main_c : IVec S_ 1 := constantI S_ 1 1#1
  let main_v3 : IVec S_ 1 := (fun x v => Host.reduce IntOp.andi x v reducesTo_S4096x128x256_S_d0_1_2 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 128#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096x128x256 : Shape := ⟨3, ![4096, 128, 256]⟩
abbrev S4096 : Shape := ⟨1, ![4096]⟩
abbrev S4096x1 : Shape := ⟨2, ![4096, 1]⟩
abbrev S4096x256 : Shape := ⟨2, ![4096, 256]⟩
abbrev S64x1 : Shape := ⟨2, ![64, 1]⟩
abbrev S64x128x256 : Shape := ⟨3, ![64, 128, 256]⟩
abbrev S64x256 : Shape := ⟨2, ![64, 256]⟩
abbrev S64x128 : Shape := ⟨2, ![64, 128]⟩
abbrev S64x128x1 : Shape := ⟨3, ![64, 128, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x128x256, .f32⟩
  | .hbm, ⟨1, _⟩ => ⟨S4096, .i32⟩
  | .hbm, ⟨2, _⟩ => ⟨S4096x1, .i32⟩
  | .hbm, ⟨3, _⟩ => ⟨S4096x256, .f32⟩
  | .local _ .vmem, ⟨0, _⟩ => ⟨S64x1, .i32⟩
  | .local _ .vmem, ⟨1, _⟩ => ⟨S64x1, .i32⟩
  | .local _ .vmem, ⟨2, _⟩ => ⟨S64x128x256, .f32⟩
  | .local _ .vmem, ⟨3, _⟩ => ⟨S64x128x256, .f32⟩
  | .local _ .vmem, ⟨4, _⟩ => ⟨S64x256, .f32⟩
  | .local _ .vmem, ⟨5, _⟩ => ⟨S64x256, .f32⟩
  | _, _ => ⟨S4096x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S4096x1 : S4096.ShapeCasts S4096x1
  iota_S64x128_d1_w32 : S64x128.Iotas .tc 32 [1]
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  natLt_1_32 : 1 < 32
  shapeCasts_S64x128_S64x128x1 : S64x128.ShapeCasts S64x128x1
  inb_S64x128x256_S64x128x256_0_0_0 : ∀ a, (![0, 0, 0] : Fin 3 → Nat) a + S64x128x256.size a ≤ S64x128x256.size a
  h_S64x128x256 : 0 < S64x128x256.numel
  broadcasts_S64x128x1_S64x128x256 : S64x128x1.Broadcasts S64x128x256
  reduces_S64x128x256_S64x256 : S64x128x256.Reduces [1] S64x256
  inb_S64x256_S64x256_0_0 : ∀ a, (![0, 0] : Fin 2 → Nat) a + S64x256.size a ≤ S64x256.size a
  h_S64x256 : 0 < S64x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1.size a ≤ S4096x1.size a
  hwx0_0 : ∀ i : grid0.Coords, EltTy.bits .i32 = 32 ∨ (Rect.block (s := S4096x1) S64x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x256.size a ≤ S4096x128x256.size a
  hwx0_1 : ∀ i : grid0.Coords, EltTy.bits .f32 = 32 ∨ (Rect.block (s := S4096x128x256) S64x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S4096x256.size a
  hwx0_2 : ∀ i : grid0.Coords, EltTy.bits .f32 = 32 ∨ (Rect.block (s := S4096x256) S64x256.size (cc0_transform_2 i) (hinb0_2 i)).WholeWords (EltTy.packing .f32)

variable [Facts₀]

abbrev win0_0 : Pipeline.Window sig grid0 :=
  Pipeline.Window.ofSpec (Memref.whole main_v0) S64x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x128x256 : Shape := ⟨3, ![4096, 128, 256]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S4096x256 : Shape := ⟨2, ![4096, 256]⟩

abbrev nBuf : Space → Nat
  | .hbm => 21
  | .vmem => 0
  | .smem => 0
  | _ => 0

abbrev bufTy : (tb : Table) → Fin (tcTables nBuf tb) → BufTy
  | .hbm, ⟨0, _⟩ => ⟨S4096x128x256, .f32⟩
  | .hbm, ⟨1, _⟩ => ⟨S4096, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x1, .i32⟩
  | .hbm, ⟨19, _⟩ => ⟨S4096x2, .i32⟩
  | .hbm, ⟨20, _⟩ => ⟨S4096x256, .f32⟩
  | _, _ => ⟨S4096x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  gather_S4096x128x256_S4096x2_S4096x256_1_01_n_n_01_1_11256_wf : GatherDims.WF S4096x128x256 S4096x2 S4096x256 [1] [0, 1] [] [0, 1] [] 1 ![1, 1, 256]

variable [Facts₀]

def gather_S4096x128x256_S4096x2_S4096x256_1_01_n_n_01_1_11256 : GatherDims S4096x128x256 S4096x2 S4096x256 where
  offsetDims := [1]
  collapsedSliceDims := [0, 1]
  operandBatchingDims := []
  startIndicesBatchingDims := []
  startIndexMap := [0, 1]
  indexVectorDim := 1
  sliceSizes := ![1, 1, 256]
  wf := gather_S4096x128x256_S4096x2_S4096x256_1_01_n_n_01_1_11256_wf

class Facts : Prop extends Facts₀ where

variable [Facts]
-- ==== Proof.OneHot.lean ====
/-
  Selecting one row out of 128 by a mask, on the extended reals.

  The kernel turns a row's class index `w` (a 32-bit word) into 128 weights: the weight of class `c` is the
  integer value of the widened bit `[c = w]`, read as a real number, so it is `1` when `c` is `w` and `0`
  otherwise. Multiplying the row's 128 candidate entries by these weights and adding them up leaves the entry of
  class `w` when `w` is one of the 128 classes: every other term is `0 · x = 0`, which holds for every extended
  real `x`, and the remaining one is `1 · x = x`; no finiteness of the entries is used.

  Also here: the three re-layouts the mask goes through read at an index (the index column laid along the
  classes, the mask given a trailing unit axis, that axis laid along the 256 lanes), and what a word in the
  signed range `0 ≤ w < 128` is as a natural number.
-/
import Idealize.ShloMosaic.PureOps.Ideal
import Idealize.ShloMosaic.Lib.Affine
import Idealize.ShloMosaic.Lib.ValueIdx
import Idealize.ShloMosaic.Lib.Pipeline.Value

noncomputable section

open scoped BigOperators

namespace Cert.OneHot

open Idealize.ShloMosaic Idealize.ShloMosaic.ValueIdx

/-! ## A class index as a natural number -/

/-- A word whose signed value lies in `[0, 128)` is below 128 read unsigned. -/
theorem toNat_lt_of_toInt {w : BitVec 32} (h0 : 0 ≤ w.toInt) (h1 : w.toInt < 128) : w.toNat < 128 := by
  have h32 := w.isLt
  unfold BitVec.toInt at h0 h1
  split at h0 <;> omega

/-- A word below 128 read unsigned has that signed value. -/
theorem toInt_of_toNat_lt {w : BitVec 32} (h : w.toNat < 128) : w.toInt = (w.toNat : ℤ) := by
  unfold BitVec.toInt
  rw [if_pos (by omega)]

/-! ## The weights -/

/-- The weight the kernel gives class `c` in a row whose index word is `w`: the bit `[c = w]`, widened to 32
    bits, its integer value read as a real. -/
def weight (w : BitVec 32) (c : Fin 128) : EReal :=
  ((((IntOp.cmpi .eq (BitVec.ofNat 32 c.val) w).setWidth 32).toInt : ℝ) : EReal)

/-- For an index word naming one of the 128 classes the weights are that class's indicator. -/
theorem weight_eq (w : BitVec 32) (hw : w.toNat < 128) (c : Fin 128) :
    weight w c = if c = ⟨w.toNat, hw⟩ then 1 else 0 := by
  unfold weight
  by_cases hc : BitVec.ofNat 32 c.val = w
  · have h1 : IntOp.cmpi .eq (BitVec.ofNat 32 c.val) w = 1#1 := IntOp.cmpi_eq.2 hc
    have hcw : c = ⟨w.toNat, hw⟩ := by
      apply Fin.ext
      show c.val = w.toNat
      rw [← hc, BitVec.toNat_ofNat]
      have := c.isLt
      omega
    have e1 : ((1#1 : BitVec 1).setWidth 32).toInt = 1 := by decide
    rw [h1, if_pos hcw, e1]
    simp
  · have h0 : IntOp.cmpi .eq (BitVec.ofNat 32 c.val) w = 0#1 :=
      eq_zero_of_ne_one fun h => hc (IntOp.cmpi_eq.1 h)
    have hcw : ¬ c = ⟨w.toNat, hw⟩ := by
      intro h
      apply hc
      rw [h]
      exact BitVec.eq_of_toNat_eq (by
        rw [BitVec.toNat_ofNat]
        show w.toNat % 2 ^ 32 = w.toNat
        omega)
    have e0 : ((0#1 : BitVec 1).setWidth 32).toInt = 0 := by decide
    rw [h0, if_neg hcw, e0]
    simp

/-- The weighted sum of a row's 128 candidates is the candidate of the indexed class. -/
theorem sum_weight (w : BitVec 32) (hw : w.toNat < 128) (f : Fin 128 → EReal) :
    ∑ c : Fin 128, weight w c * f c = f ⟨w.toNat, hw⟩ := by
  rw [Finset.sum_eq_single (⟨w.toNat, hw⟩ : Fin 128)]
  · rw [weight_eq w hw, if_pos rfl, one_mul]
  · intro c _ hc
    rw [weight_eq w hw, if_neg hc, zero_mul]
  · intro h
    exact absurd (Finset.mem_univ _) h

/-! ## The result, as one function of the two argument arrays -/

/-- The class an index word names (for a word in `[0, 128)`, the word itself). -/
def cls (w : BitVec 32) : Fin 128 := ⟨w.toNat % 128, Nat.mod_lt _ (by decide)⟩

theorem cls_of_lt {w : BitVec 32} (hw : w.toNat < 128) : cls w = ⟨w.toNat, hw⟩ := Fin.ext (Nat.mod_eq_of_lt hw)

/-- Row `r`, lane `q` of the result: the candidate table's entry (`r`, the class row `r`'s index names, `q`). -/
def picked (table : (⟨3, ![4096, 128, 256]⟩ : Shape).Idx → EReal) (idx : (⟨1, ![4096]⟩ : Shape).Idx → BitVec 32) :
    (⟨2, ![4096, 256]⟩ : Shape).Idx → EReal := fun j =>
  table (ix3 (⟨(j 0).val, idx2_lt0 j⟩ : Fin 4096) (cls (idx (ix1 (⟨(j 0).val, idx2_lt0 j⟩ : Fin 4096))))
    (⟨(j 1).val, idx2_lt1 j⟩ : Fin 256))

theorem picked_apply (table : (⟨3, ![4096, 128, 256]⟩ : Shape).Idx → EReal) (idx : (⟨1, ![4096]⟩ : Shape).Idx → BitVec 32)
    (r : Fin 4096) (q : Fin 256) : picked table idx (ix2 r q) = table (ix3 r (cls (idx (ix1 r))) q) := rfl

/-! ## The mask's re-layouts, read at an index -/

section Layout
variable {α : Type}

/-- The index column `[64, 1]` laid along the 128 classes reads, at (row `p`, class `c`), the column at row `p`. -/
theorem column_along_classes (v : (⟨2, ![64, 1]⟩ : Shape).Idx → α)
    (h : (⟨2, ![64, 1]⟩ : Shape).Broadcasts ⟨2, ![64, 128]⟩) (p : Fin 64) (c : Fin 128) :
    broadcastTo ⟨2, ![64, 128]⟩ v h (ix2 p c) = v (ix2 p (0 : Fin 1)) :=
  broadcastTo_apply v h (ix2 p c) (ix2 p (0 : Fin 1)) fun a => match a with
    | ⟨0, _⟩ => by show p.val = if (64 : Nat) = 1 then 0 else p.val; rw [if_neg (by decide)]
    | ⟨1, _⟩ => by show (0 : Nat) = if (1 : Nat) = 1 then 0 else c.val; rw [if_pos rfl]

/-- The mask `[64, 128]` given a trailing unit axis reads, at (`p`, `c`, 0), the mask at (`p`, `c`). -/
theorem trailing_unit (v : (⟨2, ![64, 128]⟩ : Shape).Idx → α)
    (h : (⟨2, ![64, 128]⟩ : Shape).ShapeCasts ⟨3, ![64, 128, 1]⟩) (p : Fin 64) (c : Fin 128) :
    shapeCast ⟨3, ![64, 128, 1]⟩ v h (ix3 p c (0 : Fin 1)) = v (ix2 p c) :=
  shapeCast_apply v h (ix3 p c (0 : Fin 1)) (ix2 p c) (by
    rw [Shape.rowMajor_val_two, Shape.rowMajor_val_three]
    show p.val * 128 + c.val = (p.val * 128 + c.val) * 1 + 0
    omega)

/-- That unit axis laid along the 256 lanes reads, at (`p`, `c`, `q`), the operand at (`p`, `c`, 0). -/
theorem unit_along_lanes (v : (⟨3, ![64, 128, 1]⟩ : Shape).Idx → α)
    (h : (⟨3, ![64, 128, 1]⟩ : Shape).Broadcasts ⟨3, ![64, 128, 256]⟩) (p : Fin 64) (c : Fin 128) (q : Fin 256) :
    broadcastTo ⟨3, ![64, 128, 256]⟩ v h (ix3 p c q) = v (ix3 p c (0 : Fin 1)) :=
  broadcastTo_apply v h (ix3 p c q) (ix3 p c (0 : Fin 1)) fun a => match a with
    | ⟨0, _⟩ => by show p.val = if (64 : Nat) = 1 then 0 else p.val; rw [if_neg (by decide)]
    | ⟨1, _⟩ => by show c.val = if (128 : Nat) = 1 then 0 else c.val; rw [if_neg (by decide)]
    | ⟨2, _⟩ => by show (0 : Nat) = if (1 : Nat) = 1 then 0 else q.val; rw [if_pos rfl]

end Layout

end Cert.OneHot

end
-- ==== Proof.IndexRange.lean ====
/-
  The precondition, read back: every class index lies in `[0, 128)`.

  The precondition is the conjunction of two `all`-reductions: every candidate entry is finite, and every class
  index `w` satisfies `0 ≤ w` and `w < 128` as signed 32-bit integers. Its value being `1` makes the second
  reduction `1`, an `and`-reduction that is `1` had a `1` at every index, and an elementwise `and` of two signed
  comparisons being `1` is the two inequalities.
-/
import proofs.«400196_j35167192220011_1_alg».proof.Pre_finite_inputs
import Idealize.ShloMosaic.Lib.ReduceAll
import Idealize.ShloMosaic.Lib.ValueIdx

noncomputable section

namespace Cert.Pre_finite_inputs.Range

open Cert.Pre_finite_inputs Idealize.ShloMosaic

variable [Cert.Pre_finite_inputs.Facts]

/-- The scalar shape has one index. -/
instance : Subsingleton S_.Idx := ⟨fun a b => funext fun d => d.elim0⟩

/-- Where the precondition holds, the class index at every position is in `[0, 128)` read signed. -/
theorem index_range {F : FTy → Type} [FloatOps F] (a0 : FVec F S4096x128x256 .f32) (a1 : IVec S4096 32)
    (h : fn (F := F) a0 a1 = fun _ => 1#1) (i : S4096.Idx) : 0 ≤ (a1 i).toInt ∧ (a1 i).toInt < 128 := by
  have e := congrFun h ValueIdx.ix0
  dsimp only [fn] at e
  obtain ⟨-, e9⟩ := IntOp.andi_eq_one.1 e
  have ei := Host.reduce_andi_all _ _ _ _ _ e9 i
  obtain ⟨h5, h7⟩ := IntOp.andi_eq_one.1 ei
  have h5' : IntOp.cmpi .sge (a1 i) 0#32 = 1#1 := h5
  have h7' : IntOp.cmpi .slt (a1 i) 128#32 = 1#1 := h7
  have z : (0#32 : BitVec 32).toInt = 0 := by decide
  have o : (128#32 : BitVec 32).toInt = 128 := by decide
  have g5 := IntOp.cmpi_sge.1 h5'
  have g7 := IntOp.cmpi_slt.1 h7'
  rw [z] at g5
  rw [o] at g7
  exact ⟨g5, g7⟩

end Cert.Pre_finite_inputs.Range

end
-- ==== Proof.KernelPayload.lean ====
/-
  What the kernel body stores, read at one entry.

  The body's one store writes, at (row `p`, lane `q`) of the 64 × 256 output block, the sum over the 128 classes
  `c` of `mask(p, c) · table(p, c, q)`, where `table` is the loaded 64 × 128 × 256 block of candidates and
  `mask(p, c)` is the weight `[c = idx(p)]` made from the loaded 64 × 1 column of class indices: the lane sum
  over the class axis is a sum over `Fin 128`, the product is entry by entry, and the mask's re-layouts
  (column along the classes, a trailing unit axis, that axis along the lanes) only move entries.
-/
import proofs.«400196_j35167192220011_1_alg».proof.Proof.Gen.KernelIdeal.Skeleton
import proofs.«400196_j35167192220011_1_alg».proof.Proof.OneHot
import Idealize.ShloMosaic.PureOps.Ideal.Laws
import Idealize.ShloMosaic.Lib.ValueIdx
import Idealize.ShloMosaic.Lib.Pipeline.Value

noncomputable section

open scoped BigOperators

namespace Cert.KernelIdeal.RowPick

open Cert.KernelIdeal Cert.KernelIdeal.Gen Idealize.ShloMosaic Idealize.ShloMosaic.ValueIdx Cert.OneHot

/-- The mask at (row `p`, class `c`), as the body builds it from the index column `x0`, is the weight of class `c`
    for the row's index word. -/
theorem mask_apply (x0 : IVec S64x1 32) (hi : S64x128.Iotas .tc 32 [1]) (hc : S64x1.ShapeCasts S64x1)
    (hb : S64x1.Broadcasts S64x128) (hw : 1 < 32) (p : Fin 64) (c : Fin 128) :
    (sitofp .f32 (extui 32 (cmpi .eq (iota .tc S64x128 32 [1] hi) (broadcastTo S64x128 (shapeCast S64x1 x0 hc) hb)) hw)
      : FVec Ideal S64x128 .f32) (ix2 p c) = weight (x0 (ix2 p (0 : Fin 1))) c := by
  show ((((IntOp.cmpi .eq (iota .tc S64x128 32 [1] hi (ix2 p c))
      (broadcastTo S64x128 (shapeCast S64x1 x0 hc) hb (ix2 p c))).setWidth 32).toInt : ℝ) : EReal) = _
  rw [iota_single_apply, column_along_classes, shapeCast_self]
  rfl

/-- The class axis put back into an output index: (row `p`, lane `q`) with class `c` inserted is (`p`, `c`, `q`). -/
theorem lift_class (h : S64x128x256.Reduces [1] S64x256) (p : Fin 64) (q : Fin 256) (c : Fin 128) :
    h.lift (ix2 p q) c = ix3 p c q := by
  funext a
  apply Fin.ext
  match a with
  | ⟨0, _⟩ => rfl
  | ⟨1, _⟩ => rfl
  | ⟨2, _⟩ => rfl

/-- The stored value at (row `p`, lane `q`): the weighted sum of the row's 128 candidates at lane `q`. -/
theorem payload_apply (x0 : IVec S64x1 32) (x1 : FVec Ideal S64x128x256 .f32) (p : Fin 64) (q : Fin 256) :
    k0_pay1 (F := Ideal) x0 x1 (ix2 p q) = ∑ c : Fin 128, weight (x0 (ix2 p (0 : Fin 1))) c * x1 (ix3 p c q) := by
  unfold k0_pay1
  refine (Ideal.multiReduction_add_single _ _ _ _ _ (ix2 p q)).trans ?_
  show ∑ c : Fin 128, _ = _
  refine Finset.sum_congr rfl fun c _ => ?_
  rw [lift_class, mulf_apply, unit_along_lanes, trailing_unit, mask_apply]

/-- One entry of one output block. If the loaded index column holds, at row `p`, the index of array row `R`, and the
    loaded candidates at (`p`, ·, `q`) are the table's at (`R`, ·, `q`), then for an index in `[0, 128)` the stored value
    at (`p`, `q`) is the table's entry (`R`, class of that index, `q`). -/
theorem block_entry (x0 : IVec S64x1 32) (x1 : FVec Ideal S64x128x256 .f32)
    (table : S4096x128x256.Idx → EReal) (idx : S4096.Idx → BitVec 32) (p : Fin 64) (q : Fin 256) (R : Fin 4096)
    (h0 : x0 (ix2 p (0 : Fin 1)) = idx (ix1 R)) (h1 : ∀ c : Fin 128, x1 (ix3 p c q) = table (ix3 R c q))
    (hr : (idx (ix1 R)).toNat < 128) :
    k0_pay1 (F := Ideal) x0 x1 (ix2 p q) = table (ix3 R (cls (idx (ix1 R))) q) := by
  rw [payload_apply, h0]
  have e : ∀ c : Fin 128, weight (idx (ix1 R)) c * x1 (ix3 p c q)
      = weight (idx (ix1 R)) c * (fun c => table (ix3 R c q)) c := fun c => by rw [h1 c]
  rw [Finset.sum_congr rfl (fun c _ => e c), sum_weight _ hr, cls_of_lt hr]

end Cert.KernelIdeal.RowPick

end
-- ==== Proof.KernelValue.lean ====
/-
  The kernel's result array, whole.

  The grid has 64 points; point `t` stages rows `64·t … 64·t + 63` of the index column (the host's reshape of the
  index vector to one column), the same rows of the candidate table (all classes, all lanes), and writes back the
  same rows of the result. So in the blocks at `t`, row `p` is array row `R = 64·t + p`, and by the body's value
  (the weighted sum over the classes, which for an index in `[0, 128)` is the candidate of the indexed class) what
  `t` writes back is block `t` of the one function `picked table idx`: entry (`R`, `q`) is
  `table (R, idx R, q)`. The 64 blocks tile the 4096 rows, so after the run the whole result array is that function.
-/
import proofs.«400196_j35167192220011_1_alg».proof.Proof.Gen.KernelIdeal.Value
import proofs.«400196_j35167192220011_1_alg».proof.Proof.KernelPayload
import Idealize.ShloMosaic.Lib.StableHlo.Run
import Idealize.ShloMosaic.Lib.Pipeline.Value

noncomputable section

namespace Cert.KernelIdeal.RowPick

open Cert.KernelIdeal Cert.KernelIdeal.Gen
open Idealize.ShloMosaic Idealize.ShloMosaic.TcCoe Idealize.SL.Sem Idealize.ShloMosaic.ValueIdx Cert.OneHot
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-! ## The arrays the region finds -/

/-- The index column as the region finds it: the host's reshape of the index vector. -/
theorem column_eq (c : Dev nD) :
    (V m c main_v0 : S4096x1.Idx → BitVec 32)
      = shapeCast S4096x1 (m ((c : Thread nD τ).loc main_arg1)) Gen.shapeCasts_S4096_S4096x1 := by
  dsimp only [Gen.V, Gen.hostOps0]
  after_results
  rfl

/-- Row `R` of the one-column reshape is entry `R` of the index vector. -/
theorem column_apply (c : Dev nD) (R : Fin 4096) :
    (V m c main_v0 : S4096x1.Idx → BitVec 32) (ix2 R (0 : Fin 1)) = m ((c : Thread nD τ).loc main_arg1) (ix1 R) := by
  rw [column_eq]
  exact shapeCast_apply _ _ (ix2 R (0 : Fin 1)) (ix1 R) (by
    rw [Shape.rowMajor_val_one, Shape.rowMajor_val_two]
    show R.val = R.val * 1 + 0
    omega)

/-! ## The windows' blocks -/

/-- The printed index maps, decided over the 64 points: the two input windows move with the output's rows, and
    nothing moves on the other axes. -/
theorem idx_facts : ∀ t : Fin cfg0.N, win0_0.index t (0 : Fin 2) = win0_2.index t (0 : Fin 2)
    ∧ win0_0.index t (1 : Fin 2) = 0
    ∧ win0_1.index t (0 : Fin 3) = win0_2.index t (0 : Fin 2)
    ∧ win0_1.index t (1 : Fin 3) = 0
    ∧ win0_1.index t (2 : Fin 3) = 0
    ∧ win0_2.index t (0 : Fin 2) ≤ 63
    ∧ win0_2.index t (1 : Fin 2) = 0 :=
  (by decide +kernel : ∀ t : Fin grid0.N, _)

/-- Every one of the 64 row blocks is some point's. -/
theorem idx_onto : ∀ q0 : Fin 64, ∃ t : Fin cfg0.N, win0_2.index t = ![q0.val, 0] :=
  (by decide +kernel : ∀ q0 : Fin 64, ∃ t : Fin grid0.N, win0_2.index t = ![q0.val, 0])

/-- The index column's block at point `t`, row `p`: the index of array row `R = 64·t + p`. -/
theorem iblk0_apply (c : Dev nD) (t : Fin cfg0.N) (p : Fin 64) (R : Fin 4096)
    (hR : R.val = win0_2.index t (0 : Fin 2) * 64 + p.val) :
    iblk m c 0 t (ix2 p (0 : Fin 1)) = m ((c : Thread nD τ).loc main_arg1) (ix1 R) := by
  rw [← column_apply m c R]
  show V m c main_v0 (((cfg0.win 0).blk t).view.emb (ix2 p (0 : Fin 1))) = V m c main_v0 (ix2 R (0 : Fin 1))
  obtain ⟨e0, e1, e2, e3, e4, e5, e6⟩ := idx_facts t
  refine congrArg _ (funext fun a => Fin.ext ?_)
  match a with
  | ⟨0, _⟩ => show win0_0.index t (0 : Fin 2) * 64 + 1 * p.val = R.val; omega
  | ⟨1, _⟩ => show win0_0.index t (1 : Fin 2) * 1 + 1 * 0 = 0; omega

/-- The candidate table's block at point `t`, at (`p`, `k`, `q`): the table at (`R`, `k`, `q`). -/
theorem iblk1_apply (c : Dev nD) (t : Fin cfg0.N) (p : Fin 64) (k : Fin 128) (q : Fin 256) (R : Fin 4096)
    (hR : R.val = win0_2.index t (0 : Fin 2) * 64 + p.val) :
    iblk m c 1 t (ix3 p k q) = m ((c : Thread nD τ).loc main_arg0) (ix3 R k q) := by
  rw [← V_main_arg0 m c]
  show V m c main_arg0 (((cfg0.win 1).blk t).view.emb (ix3 p k q)) = V m c main_arg0 (ix3 R k q)
  obtain ⟨e0, e1, e2, e3, e4, e5, e6⟩ := idx_facts t
  refine congrArg _ (funext fun a => Fin.ext ?_)
  match a with
  | ⟨0, _⟩ => show win0_1.index t (0 : Fin 3) * 64 + 1 * p.val = R.val; omega
  | ⟨1, _⟩ => show win0_1.index t (1 : Fin 3) * 128 + 1 * k.val = k.val; omega
  | ⟨2, _⟩ => show win0_1.index t (2 : Fin 3) * 256 + 1 * q.val = q.val; omega

/-! ## What a point writes back -/

/-- The body's value at point `t`, at entry `y` of the block: `picked` at array row `R = 64·t + y₀`, lane `y₁`. -/
theorem block_value (hr : ∀ (c : Dev nD) (R : Fin 4096), (m ((c : Thread nD τ).loc main_arg1) (ix1 R)).toNat < 128)
    (c : Dev nD) (t : Fin cfg0.N) (y : S64x256.Idx) (R : Fin 4096) (Q : Fin 256)
    (hR : R.val = win0_2.index t (0 : Fin 2) * 64 + (y 0).val) (hQ : Q.val = (y 1).val) :
    k0_pay1 (F := Ideal) (iblk m c 0 t) (iblk m c 1 t) y
      = picked (m ((c : Thread nD τ).loc main_arg0)) (m ((c : Thread nD τ).loc main_arg1)) (ix2 R Q) := by
  obtain ⟨p, q, rfl⟩ : ∃ (p : Fin 64) (q : Fin 256), y = ix2 p q := ⟨y 0, y 1, eq_ix2 y⟩
  obtain rfl : Q = q := Fin.ext hQ
  rw [picked_apply]
  exact block_entry (iblk m c 0 t) (iblk m c 1 t) (m ((c : Thread nD τ).loc main_arg0))
    (m ((c : Thread nD τ).loc main_arg1)) p Q R (iblk0_apply m c t p R hR) (fun k => iblk1_apply m c t p k Q R hR) (hr c R)

/-- WHAT POINT `t` WRITES BACK is block `t` of `picked` of the two argument arrays. -/
theorem flushed_eq (hr : ∀ (c : Dev nD) (R : Fin 4096), (m ((c : Thread nD τ).loc main_arg1) (ix1 R)).toNat < 128)
    (c : Dev nD) (t : Fin cfg0.N) :
    (dats m 0 c).flushed 2 t = ((cfg0.win 2).blk t).view.read (Elt Ideal)
      (picked (m ((c : Thread nD τ).loc main_arg0)) (m ((c : Thread nD τ).loc main_arg1))) := by
  rw [Value.flushed2]
  unfold out0_2
  rw [View.canon_unit_zero zero2]
  simp only [View.ld_unit_zero (S := S64x1) zero2, View.ld_unit_zero (S := S64x128x256) zero3]
  funext j
  obtain ⟨e0, e1, e2, e3, e4, e5, e6⟩ := idx_facts t
  have hj0 : (j 0).val < 64 := (j 0).isLt
  have hj1 : (j 1).val < 256 := (j 1).isLt
  show k0_pay1 (F := Ideal) (iblk m c 0 t) (iblk m c 1 t) j
    = picked (m ((c : Thread nD τ).loc main_arg0)) (m ((c : Thread nD τ).loc main_arg1)) (((cfg0.win 2).blk t).view.emb j)
  refine (block_value m hr c t j ⟨win0_2.index t (0 : Fin 2) * 64 + (j 0).val, by omega⟩ ⟨(j 1).val, hj1⟩ rfl rfl).trans ?_
  refine congrArg _ (funext fun a => Fin.ext ?_)
  match a with
  | ⟨0, _⟩ => show win0_2.index t (0 : Fin 2) * 64 + (j 0).val = win0_2.index t (0 : Fin 2) * 64 + 1 * (j 0).val; omega
  | ⟨1, _⟩ => show (j 1).val = win0_2.index t (1 : Fin 2) * 256 + 1 * (j 1).val; omega

/-! ## From blocks to the array -/

/-- An index of the result array is in point `t`'s block iff each coordinate is in the block's range on its axis. -/
theorem mem_blk (t : Fin cfg0.N) (i : S4096x256.Idx) :
    i ∈ ((cfg0.win 2).blk t).view.set ↔ ∀ a : Fin 2, win0_2.index t a * S64x256.size a ≤ (i a).val
      ∧ (i a).val < win0_2.index t a * S64x256.size a + S64x256.size a := by
  show i ∈ ((View.whole main_v1).slice (win0_2.rect t)).set ↔ _
  rw [View.set_slice_whole, Rect.mem_set_unit]
  exact Iff.rfl

/-- Every entry of the result array is written back by some point: row `r` by the point whose block index is `r / 64`. -/
theorem cover (i : S4096x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  obtain ⟨t, ht⟩ := idx_onto ⟨(i 0).val / 64, by omega⟩
  have q0 : win0_2.index t (0 : Fin 2) = (i 0).val / 64 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 256 ≤ (i 1).val ∧ (i 1).val < win0_2.index t (1 : Fin 2) * 256 + 256; omega

/-- THE RESULT ARRAY after the run: `picked` of the two argument arrays, everywhere. -/
theorem final (hr : ∀ (c : Dev nD) (R : Fin 4096), (m ((c : Thread nD τ).loc main_arg1) (ix1 R)).toNat < 128)
    (c : Dev nD) :
    (dats m 0 c).arrAt 2 cfg0.N
      = picked (m ((c : Thread nD τ).loc main_arg0)) (m ((c : Thread nD τ).loc main_arg1)) :=
  (dats m 0 c).arrAt_eq_of_cover 2 _ (fun t _ => flushed_eq m hr c t) cover

/-- The kernel's run re-posted: the result array at `picked` of the arguments, the arguments unchanged. -/
theorem run (hr : ∀ (c : Dev nD) (R : Fin 4096), (m ((c : Thread nD τ).loc main_arg1) (ix1 R)).toNat < 128) :
    θ_run defs (onTc (τ := τ) (main (F := Ideal))) ⟨m, fun _ => 0, ρ⟩ fun r => ∀ c : Dev nD,
      r.2.mem ((c : Thread nD τ).loc main_v1)
        = picked (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hr c), (h c).2⟩) (Value.run_blocks m ρ)

end Cert.KernelIdeal.RowPick

end
-- ==== Proof.RefValue.lean ====
/-
  The reference's result array, whole.

  The reference indexes the candidate table with two index vectors, the row numbers `0 … 4095` and the class indices,
  which jnp lowers to: wrap each index that is negative by its axis's extent, stack the two as the columns of a
  `[4096, 2]` table, and gather rows of 256 lanes at those start indices, each start component read signed and clamped
  to its axis. A row number is never negative and is below 4096; a class index in `[0, 128)` is neither negative nor
  above 127. So under the index range neither the wrap nor the clamp does anything, and the result at (`r`, `q`) is
  the table's entry (`r`, class index of row `r`, `q`): the same function `picked` the kernel's result array is.
-/
import proofs.«400196_j35167192220011_1_alg».proof.Proof.Gen.ReferenceIdeal.Read
import proofs.«400196_j35167192220011_1_alg».proof.Proof.OneHot
import Idealize.ShloMosaic.Lib.StableHlo.Predicate
import Idealize.ShloMosaic.Lib.ValueIdx
import Idealize.ShloMosaic.Lib.Pipeline.Value

noncomputable section

namespace Cert.ReferenceIdeal.RowPick

open Cert.ReferenceIdeal Cert.ReferenceIdeal.Gen Cert.ReferenceIdeal.Read
open Idealize.ShloMosaic Idealize.ShloMosaic.ValueIdx Cert.OneHot

variable {F : FTy → Type} [FloatOps F]

theorem idx11 (r : Fin 4096) : idx_main_v11 (ix2 r (0 : Fin 1)) = ix1 r :=
  funext fun a => Fin.ext (by match a with | ⟨0, _⟩ => rfl)
theorem idx12 (r : Fin 4096) : idx_main_v12 (ix2 r (0 : Fin 1)) = ix1 r :=
  funext fun a => Fin.ext (by match a with | ⟨0, _⟩ => rfl)

theorem zero_toInt : (0#32 : BitVec 32).toInt = 0 := by decide

/-- The first index column at row `r`: the row number itself (it is not negative, so jnp's wrap leaves it). -/
theorem rows_apply (r : Fin 4096) : val_main_v11 (F := F) (ix2 r (0 : Fin 1)) = BitVec.ofNat 32 r.val := by
  rw [val_main_v11_apply, idx11, val_main_v5_apply, val_main_v2_apply, val_main_v0_apply, val_main_v1_apply,
    val_main_c_apply]
  have hlt : ¬ IntOp.cmpi .slt (BitVec.ofNat 32 r.val) 0#32 = 1#1 := by
    intro h
    have g := IntOp.cmpi_slt.1 h
    rw [StableHlo.Predicate.toInt_ofNat_small r.val (by have := r.isLt; omega), zero_toInt] at g
    omega
  show Scalar.select (IntOp.cmpi .slt (BitVec.ofNat 32 r.val) 0#32) _ (BitVec.ofNat 32 r.val) = _
  rw [eq_zero_of_ne_one hlt, select_zero]

/-- The second index column at row `r`: the row's class index, when it is not negative. -/
theorem classes_apply (x1 : IVec S4096 32) (r : Fin 4096) (h0 : 0 ≤ (x1 (ix1 r)).toInt) :
    val_main_v12 (F := F) x1 (ix2 r (0 : Fin 1)) = x1 (ix1 r) := by
  rw [val_main_v12_apply, idx12, val_main_v10_apply, val_main_v7_apply, val_main_v6_apply, val_main_c_1_apply]
  have hlt : ¬ IntOp.cmpi .slt (x1 (ix1 r)) 0#32 = 1#1 := by
    intro h
    have g := IntOp.cmpi_slt.1 h
    rw [zero_toInt] at g
    omega
  show Scalar.select (IntOp.cmpi .slt (x1 (ix1 r)) 0#32) _ (x1 (ix1 r)) = _
  rw [eq_zero_of_ne_one hlt, select_zero]

/-- The index table `[4096, 2]` at (row `r`, 0): the row number. -/
theorem table_row (x1 : IVec S4096 32) (r : Fin 4096) :
    val_main_v13 (F := F) x1 (ix2 r (0 : Fin 2)) = BitVec.ofNat 32 r.val := by
  unfold val_main_v13
  refine (concatenate_pair_apply_left (s₁ := S4096x1) (s₂ := S4096x1) _ _ _ _ (ix2 r (0 : Fin 2)) rfl
    (ix2 r (0 : Fin 1)) ?_).trans (rows_apply r)
  intro b
  match b with
  | ⟨0, _⟩ => rfl
  | ⟨1, _⟩ => rfl

/-- The index table at (row `r`, 1): the row's class index. -/
theorem table_cls (x1 : IVec S4096 32) (r : Fin 4096) (h0 : 0 ≤ (x1 (ix1 r)).toInt) :
    val_main_v13 (F := F) x1 (ix2 r (1 : Fin 2)) = x1 (ix1 r) := by
  unfold val_main_v13
  refine (concatenate_pair_apply_right (s₁ := S4096x1) (s₂ := S4096x1) _ _ _ _ (ix2 r (1 : Fin 2)) rfl rfl
    (ix2 r (0 : Fin 1)) ?_ ?_).trans (classes_apply x1 r h0)
  · intro b hb
    match b, hb with
    | ⟨0, _⟩, _ => rfl
    | ⟨1, _⟩, hb => exact absurd rfl hb
  · rfl

/-! ## The gather, read at an index

The gather's dimension numbers: the start index at result row `r` is the pair (table (`r`, 0), table (`r`, 1)), naming the
operand's first two axes, both collapsed; the one offset axis of the result (its lanes) runs over the operand's third
axis. Each start component is read signed and clamped so that the slice fits. -/

/-- The position in the index table that result (`r`, `q`) reads start component `n` from: (`r`, `n`). -/
theorem siIdx_eq (r : Fin 4096) (q : Fin 256)
    (c : Fin gather_S4096x128x256_S4096x2_S4096x256_1_01_n_n_01_1_11256.startIndexMap.length) (n : Fin 2)
    (hc : c.val = n.val) :
    gather_S4096x128x256_S4096x2_S4096x256_1_01_n_n_01_1_11256.siIdx (ix2 r q) c = ix2 r n := by
  funext b
  refine Fin.ext ?_
  match b with
  | ⟨0, _⟩ => rfl
  | ⟨1, _⟩ => exact hc

/-- Operand axis 0 (rows): the clamped first start component, which is the row. -/
theorem operand_row (idx : IVec S4096x2 32) (r : Fin 4096) (q : Fin 256)
    (h0 : (idx (ix2 r (0 : Fin 2))).toInt.toNat = r.val) :
    (gather_S4096x128x256_S4096x2_S4096x256_1_01_n_n_01_1_11256.operandIdx (ix2 r q) idx (0 : Fin 3)).val = r.val := by
  show GatherDims.start gather_S4096x128x256_S4096x2_S4096x256_1_01_n_n_01_1_11256 (ix2 r q) idx (0 : Fin 3) + GatherDims.batchCoord gather_S4096x128x256_S4096x2_S4096x256_1_01_n_n_01_1_11256 (ix2 r q) (0 : Fin 3)
    + GatherDims.offCoord gather_S4096x128x256_S4096x2_S4096x256_1_01_n_n_01_1_11256 (ix2 r q) (0 : Fin 3) = r.val
  rw [GatherDims.batchCoord_eq_zero _ _ _ List.not_mem_nil,
    GatherDims.offCoord_eq_zero _ _ _ (fun h => ((GatherDims.mem_sKept _ _).mp h).1 (by decide))]
  unfold GatherDims.start
  rw [dif_pos (by decide), siIdx_eq r q _ (0 : Fin 2) (by decide), h0]
  show min r.val (4096 - 1) + 0 + 0 = r.val
  have := r.isLt
  omega

/-- Operand axis 1 (classes): the clamped second start component. -/
theorem operand_cls (idx : IVec S4096x2 32) (r : Fin 4096) (q : Fin 256) (k : Fin 128)
    (h1 : (idx (ix2 r (1 : Fin 2))).toInt.toNat = k.val) :
    (gather_S4096x128x256_S4096x2_S4096x256_1_01_n_n_01_1_11256.operandIdx (ix2 r q) idx (1 : Fin 3)).val = k.val := by
  show GatherDims.start gather_S4096x128x256_S4096x2_S4096x256_1_01_n_n_01_1_11256 (ix2 r q) idx (1 : Fin 3) + GatherDims.batchCoord gather_S4096x128x256_S4096x2_S4096x256_1_01_n_n_01_1_11256 (ix2 r q) (1 : Fin 3)
    + GatherDims.offCoord gather_S4096x128x256_S4096x2_S4096x256_1_01_n_n_01_1_11256 (ix2 r q) (1 : Fin 3) = k.val
  rw [GatherDims.batchCoord_eq_zero _ _ _ List.not_mem_nil,
    GatherDims.offCoord_eq_zero _ _ _ (fun h => ((GatherDims.mem_sKept _ _).mp h).1 (by decide))]
  unfold GatherDims.start
  rw [dif_pos (by decide), siIdx_eq r q _ (1 : Fin 2) (by decide), h1]
  show min k.val (128 - 1) + 0 + 0 = k.val
  have := k.isLt
  omega

/-- Operand axis 2 (lanes): no start component names it; the result's lane coordinate. -/
theorem operand_lane (idx : IVec S4096x2 32) (r : Fin 4096) (q : Fin 256) :
    (gather_S4096x128x256_S4096x2_S4096x256_1_01_n_n_01_1_11256.operandIdx (ix2 r q) idx (2 : Fin 3)).val = q.val := by
  show GatherDims.start gather_S4096x128x256_S4096x2_S4096x256_1_01_n_n_01_1_11256 (ix2 r q) idx (2 : Fin 3) + GatherDims.batchCoord gather_S4096x128x256_S4096x2_S4096x256_1_01_n_n_01_1_11256 (ix2 r q) (2 : Fin 3)
    + GatherDims.offCoord gather_S4096x128x256_S4096x2_S4096x256_1_01_n_n_01_1_11256 (ix2 r q) (2 : Fin 3) = q.val
  rw [GatherDims.batchCoord_eq_zero _ _ _ List.not_mem_nil]
  unfold GatherDims.start GatherDims.offCoord
  rw [dif_neg (by decide), dif_pos (by decide)]
  show 0 + 0 + q.val = q.val
  omega

/-- THE GATHER READ AT (row `r`, lane `q`): with start indices (`r`, `k`) in range, the operand at (`r`, `k`, `q`). -/
theorem gather_apply {α : Type} (x : S4096x128x256.Idx → α) (idx : IVec S4096x2 32) (r : Fin 4096) (q : Fin 256)
    (k : Fin 128) (h0 : (idx (ix2 r (0 : Fin 2))).toInt.toNat = r.val)
    (h1 : (idx (ix2 r (1 : Fin 2))).toInt.toNat = k.val) :
    Host.gather gather_S4096x128x256_S4096x2_S4096x256_1_01_n_n_01_1_11256 x idx (ix2 r q) = x (ix3 r k q) := by
  unfold Host.gather
  refine congrArg x (funext fun a => Fin.ext ?_)
  match a with
  | ⟨0, _⟩ => exact operand_row idx r q h0
  | ⟨1, _⟩ => exact operand_cls idx r q k h1
  | ⟨2, _⟩ => exact operand_lane idx r q

/-! ## The reference is `picked` -/

/-- With every class index in `[0, 128)`, the reference's result — the gather of the candidate table at the index
    table (row number, class index) — is `picked` of the two arguments: neither jnp's wrap of negative indices nor
    the gather's clamp changes an index that is already a row number below 4096 or a class below 128. -/
theorem reference_eq (x0 : FVec Ideal S4096x128x256 .f32) (x1 : IVec S4096 32)
    (hr : ∀ R : Fin 4096, 0 ≤ (x1 (ix1 R)).toInt ∧ (x1 (ix1 R)).toInt < 128) :
    val_main_v14 (F := Ideal) x0 x1 = picked x0 x1 := by
  funext j
  obtain ⟨r, q, rfl⟩ : ∃ (r : Fin 4096) (q : Fin 256), j = ix2 r q := ⟨j 0, j 1, eq_ix2 j⟩
  obtain ⟨g0, g1⟩ := hr r
  have hw : (x1 (ix1 r)).toNat < 128 := toNat_lt_of_toInt g0 g1
  rw [picked_apply, cls_of_lt hw]
  unfold val_main_v14
  refine gather_apply x0 _ r q ⟨(x1 (ix1 r)).toNat, hw⟩ ?_ ?_
  · rw [table_row, StableHlo.Predicate.toInt_ofNat_small r.val (by have := r.isLt; omega)]
    exact Int.toNat_natCast _
  · rw [table_cls x1 r g0, toInt_of_toNat_lt hw]
    exact Int.toNat_natCast _

end Cert.ReferenceIdeal.RowPick

end
-- ==== Proof.lean ====
/-
  A per-row gather done as a masked sum, against jnp's indexing.

  Arguments: a candidate table `ce : f32[4096, 128, 256]` and class indices `idx : i32[4096]`. The reference returns
  `ce[r, idx[r], :]` for every row `r`. The kernel, tiled 64 rows to a grid point, builds for each row the 128 weights
  `[c = idx[r]]` (a compare against an iota, widened and converted to a float), multiplies the row's 128 candidate
  vectors by them and sums over the classes.

  Precondition: every table entry finite (as generated) and, added, `0 ≤ idx[r] < 128` for every row. Outside that
  range the two programs differ — the kernel's weights are all zero and it returns 0, while jnp's indexing wraps a
  negative index and the gather clamps — so the range is the domain on which the reference indexes inside the table.

  At the ideal values both results are one function of the arguments, `picked ce idx`: entry (`r`, `q`) is
  `ce (r, idx r, q)`.
  · Kernel (Proof/KernelPayload.lean, Proof/KernelValue.lean): the stored value at (`p`, `q`) of a block is
    `∑ c, weight c · ce_block (p, c, q)`; for an index in range the weights are the indicator of its class, and
    `0 · x = 0`, `1 · x = x` hold for every extended real, so the sum is the one candidate (Proof/OneHot.lean; no
    finiteness is used). Point `t`'s blocks are rows `64 t … 64 t + 63` of the arrays, the 64 blocks tile the rows,
    so the result array after the run is `picked`.
  · Reference (Proof/RefValue.lean): the wrap of negative indices and the gather's clamp leave indices in range as
    they are, so the gathered entry is the same.
  · The range is read off the precondition in Proof/IndexRange.lean.
  The three frames are the generated ones (the reference's is its run with the result dropped); the ideal pass rewrote
  nothing, so `preserves` is `True`.
-/
import proofs.«400196_j35167192220011_1_alg».proof.Defs
import proofs.«400196_j35167192220011_1_alg».proof.Proof.Gen.Kernel
import proofs.«400196_j35167192220011_1_alg».proof.Proof.Gen.Kernel.Skeleton
import proofs.«400196_j35167192220011_1_alg».proof.Proof.Gen.Kernel.Launch
import proofs.«400196_j35167192220011_1_alg».proof.Proof.Gen.Kernel.Points
import proofs.«400196_j35167192220011_1_alg».proof.Proof.Gen.Kernel.Frame
import proofs.«400196_j35167192220011_1_alg».proof.Proof.Gen.KernelIdeal
import proofs.«400196_j35167192220011_1_alg».proof.Proof.Gen.KernelIdeal.Skeleton
import proofs.«400196_j35167192220011_1_alg».proof.Proof.Gen.KernelIdeal.Launch
import proofs.«400196_j35167192220011_1_alg».proof.Proof.Gen.KernelIdeal.Points
import proofs.«400196_j35167192220011_1_alg».proof.Proof.Gen.KernelIdeal.Frame
import proofs.«400196_j35167192220011_1_alg».proof.Proof.Gen.ReferenceIdeal
import proofs.«400196_j35167192220011_1_alg».proof.Proof.Gen.Pre_finite_inputs
import proofs.«400196_j35167192220011_1_alg».proof.Proof.Gen.KernelIdeal.Value
import proofs.«400196_j35167192220011_1_alg».proof.Proof.Gen.ReferenceIdeal.Run
import proofs.«400196_j35167192220011_1_alg».proof.Proof.Gen.ReferenceIdeal.Read
import proofs.«400196_j35167192220011_1_alg».proof.Proof.OneHot
import proofs.«400196_j35167192220011_1_alg».proof.Proof.IndexRange
import proofs.«400196_j35167192220011_1_alg».proof.Proof.KernelValue
import proofs.«400196_j35167192220011_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.OneHot

namespace Claims

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition both result arrays are `picked` of the arguments: the kernel's by its run over the tiled
    blocks, the reference's by its run read back, on arguments that agree. -/
theorem algebraic : Cert.algebraic_KernelIdeal_ReferenceIdeal := by
  intro m ρ m' ρ' hpre hagree
  have hrange : ∀ (c : Dev Cert.KernelIdeal.nD) (R : Fin 4096),
      0 ≤ (m ((c.tc : Thread Cert.KernelIdeal.nD Cert.KernelIdeal.τ).loc Cert.KernelIdeal.main_arg1) (ix1 R)).toInt
      ∧ (m ((c.tc : Thread Cert.KernelIdeal.nD Cert.KernelIdeal.τ).loc Cert.KernelIdeal.main_arg1) (ix1 R)).toInt < 128 :=
    fun c R => Cert.Pre_finite_inputs.Range.index_range _ _ (hpre c) (ix1 R)
  have hnat : ∀ (c : Dev Cert.KernelIdeal.nD) (R : Fin 4096),
      (m ((c.tc : Thread Cert.KernelIdeal.nD Cert.KernelIdeal.τ).loc Cert.KernelIdeal.main_arg1) (ix1 R)).toNat < 128 :=
    fun c R => toNat_lt_of_toInt (hrange c R).1 (hrange c R).2
  refine ⟨_, Cert.KernelIdeal.RowPick.run m ρ hnat, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2]
  exact Cert.ReferenceIdeal.RowPick.reference_eq _ _ (fun R => hrange c R)

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, trivial, Claims.algebraic⟩

end Cert.Proof

end
